-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S2x3x128 : Shape := ⟨3, ![2, 3, 128]⟩
abbrev S1x1024x1024 : Shape := ⟨3, ![1, 1024, 1024]⟩
abbrev S1x3x128 : Shape := ⟨3, ![1, 3, 128]⟩
abbrev S3x128 : Shape := ⟨2, ![3, 128]⟩
abbrev S1024x1024 : Shape := ⟨2, ![1024, 1024]⟩
abbrev S1x128 : Shape := ⟨2, ![1, 128]⟩
abbrev S1 : Shape := ⟨1, ![1]⟩
abbrev S1x1x1 : Shape := ⟨3, ![1, 1, 1]⟩
abbrev S_ : Shape := ⟨0, ![]⟩
abbrev S1x20 : Shape := ⟨2, ![1, 20]⟩
abbrev S20 : Shape := ⟨1, ![20]⟩

abbrev nBuf : Space → Nat
  | .hbm => 34
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S2x3x128, .f32⟩
  | .hbm, ⟨3, _⟩ => ⟨S_, .f32⟩
  | .hbm, ⟨4, _⟩ => ⟨S3x128, .f32⟩
  | .hbm, ⟨5, _⟩ => ⟨S1x20, .f32⟩
  | .hbm, ⟨6, _⟩ => ⟨S20, .f32⟩
  | .hbm, ⟨7, _⟩ => ⟨S1x20, .f32⟩
  | .hbm, ⟨8, _⟩ => ⟨S20, .f32⟩
  | .hbm, ⟨9, _⟩ => ⟨S1x20, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .i1⟩
  | .hbm, ⟨14, _⟩ => ⟨S_, .f32⟩
  | .hbm, ⟨15, _⟩ => ⟨S_, .f32⟩
  | .hbm, ⟨16, _⟩ => ⟨S20, .f32⟩
  | .hbm, ⟨17, _⟩ => ⟨S20, .f32⟩
  | .hbm, ⟨18, _⟩ => ⟨S20, .f32⟩
  | .hbm, ⟨19, _⟩ => ⟨S20, .f32⟩
  | .hbm, ⟨20, _⟩ => ⟨S20, .f32⟩
  | .hbm, ⟨21, _⟩ => ⟨S20, .f32⟩
  | .hbm, ⟨22, _⟩ => ⟨S20, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S20, .f32⟩
  | .hbm, ⟨28, _⟩ => ⟨S20, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x3x128, .f32⟩
  | .local _ .vmem, ⟨5, _⟩ => ⟨S1x3x128, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_12 : BitVec 32 := 0#32
  let c20_i32 : BitVec 32 := 20#32
  let v26 : BitVec 32 := Scalar.addi c0_i32_12 c20_i32
  let c1_i32 : BitVec 32 := 1#32
  ⟨c0_i32_12, v26, c1_i32⟩
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  iota_S1x128_d1_w32 : S1x128.Iotas .tc 32 [1]
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  concatenates_S1x128_S1x128_S1x128_S3x128_d0 : Shape.Concatenates [S1x128, S1x128, S1x128] S3x128 0
  reducesTo_S2x3x128_S3x128_d0 : S2x3x128.ReducesTo [0] S3x128
  h_S_ : 0 < S_.numel
  slices_S3x128_S1x20_0_0 : S3x128.Slices ![0, 0] S1x20
  shapeCasts_S1x20_S20 : S1x20.ShapeCasts S20
  slices_S3x128_S1x20_1_0 : S3x128.Slices ![1, 0] S1x20
  slices_S3x128_S1x20_2_0 : S3x128.Slices ![2, 0] S1x20
  bcast_S_S20 : S_.BroadcastsInDim S20 (![] : Fin 0 → Fin S20.rank)
  reducesTo_S20_S_d0 : S20.ReducesTo [0] S_
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16777216 : Shape := ⟨1, ![16777216]⟩
abbrev S_ : Shape := ⟨0, ![]⟩
abbrev S20 : Shape := ⟨1, ![20]⟩
abbrev S16777216x1 : Shape := ⟨2, ![16777216, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S_, .f32⟩
  | .hbm, ⟨21, _⟩ => ⟨S16777216, .f32⟩
  | .hbm, ⟨22, _⟩ => ⟨S16777216, .i1⟩
  | .hbm, ⟨23, _⟩ => ⟨S16777216, .i1⟩
  | .hbm, ⟨24, _⟩ => ⟨S16777216, .f32⟩
  | .hbm, ⟨25, _⟩ => ⟨S_, .f32⟩
  | .hbm, ⟨26, _⟩ => ⟨S20, .f32⟩
  | .hbm, ⟨27, _⟩ => ⟨S16777216x1, .i32⟩
  | .hbm, ⟨28, _⟩ => ⟨S20, .f32⟩
  | .hbm, ⟨29, _⟩ => ⟨S16777216, .f32⟩
  | .hbm, ⟨30, _⟩ => ⟨S_, .f32⟩
  | .hbm, ⟨31, _⟩ => ⟨S20, .f32⟩
  | .hbm, ⟨32, _⟩ => ⟨S16777216x1, .i32⟩
  | .hbm, ⟨33, _⟩ => ⟨S20, .f32⟩
  | .hbm, ⟨34, _⟩ => ⟨S16777216, .f32⟩
  | .hbm, ⟨35, _⟩ => ⟨S_, .f32⟩
  | .hbm, ⟨36, _⟩ => ⟨S20, .f32⟩
  | .hbm, ⟨37, _⟩ => ⟨S16777216x1, .i32⟩
  | .hbm, ⟨38, _⟩ => ⟨S20, .f32⟩
  | .hbm, ⟨39, _⟩ => ⟨S_, .f32⟩
  | .hbm, ⟨40, _⟩ => ⟨S20, .f32⟩
  | .hbm, ⟨41, _⟩ => ⟨S20, .i1⟩
  | .hbm, ⟨42, _⟩ => ⟨S_, .f32⟩
  | .hbm, ⟨43, _⟩ => ⟨S_, .f32⟩
  | .hbm, ⟨44, _⟩ => ⟨S20, .f32⟩
  | .hbm, ⟨45, _⟩ => ⟨S20, .f32⟩
  | .hbm, ⟨46, _⟩ => ⟨S20, .f32⟩
  | .hbm, ⟨47, _⟩ => ⟨S20, .f32⟩
  | .hbm, ⟨48, _⟩ => ⟨S20, .f32⟩
  | .hbm, ⟨49, _⟩ => ⟨S20, .f32⟩
  | .hbm, ⟨50, _⟩ => ⟨S20, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S20, .f32⟩
  | .hbm, ⟨56, _⟩ => ⟨S20, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  shapeCasts_S16x1024x1024_S16777216 : S16x1024x1024.ShapeCasts S16777216
  bcast_S_S16777216 : S_.BroadcastsInDim S16777216 (![] : Fin 0 → Fin S16777216.rank)
  bcast_S_S20 : S_.BroadcastsInDim S20 (![] : Fin 0 → Fin S20.rank)
  bcast_S16777216_S16777216x1_0 : S16777216.BroadcastsInDim S16777216x1 (![0] : Fin 1 → Fin S16777216x1.rank)
  reducesTo_S20_S_d0 : S20.ReducesTo [0] S_
  h_S_ : 0 < S_.numel
  scatter_S20_S16777216x1_S16777216_n_0_0_1_wf : ScatterDims.WF S20 S16777216x1 S16777216 [] [0] [0] 1

variable [Facts₀]

def scatter_S20_S16777216x1_S16777216_n_0_0_1 : ScatterDims S20 S16777216x1 S16777216 where
  updateWindowDims := []
  insertedWindowDims := [0]
  scatterDimsToOperandDims := [0]
  indexVectorDim := 1
  wf := scatter_S20_S16777216x1_S16777216_n_0_0_1_wf

class Facts : Prop extends Facts₀ where

variable [Facts]
-- ==== Proof.BinSums.lean ====
/-
  Per-bin statistics of a calibration histogram, as sums over the coordinates of the confidence array.

  A confidence x falls in bin number floor(20·x), converted to a signed 32-bit word and clamped to 0 … 19; it carries
  weight 1 when 0 ≤ x < 1 and weight 0 otherwise.  For bin k the three statistics are, over all entries (a, h, w) of
  the [16, 1024, 1024] arrays whose bin word reads k:  the sum of the weights (the count), the sum of confidence ·
  weight, and the sum of accuracy · weight.  Each is written as a triple sum over the coordinates of a term that is
  zero off the bin, so that no filtered index set appears.
-/
import Idealize.ShloMosaic.PureOps.Ideal
import Idealize.ShloMosaic.Lib.ValueIdx

noncomputable section

open scoped BigOperators

namespace Cert.BinSums

open Idealize.ShloMosaic Idealize.ShloMosaic.ValueIdx

/-- The confidence and accuracy arrays' shape. -/
abbrev SArr : Shape := ⟨3, ![16, 1024, 1024]⟩

/-- The bin word of a confidence: floor(20·x) as a signed word, clamped to 0 … 19. -/
def binWord (x : EReal) : BitVec 32 :=
  IntOp.minsi 19#32 (IntOp.maxsi 0#32
    (FloatOps.fptosi (F := Ideal) (φ := .f32) 32
      (FloatOps.floor (F := Ideal) (φ := .f32)
        (FloatOps.mulf (F := Ideal) (φ := .f32) x (Scalar.ofBits (F := Ideal) .f32 0x41A00000#32)))))

/-- The bit saying 0 ≤ x < 1. -/
def inUnit (x : EReal) : BitVec 1 :=
  IntOp.andi (FloatOps.cmpf (F := Ideal) (φ := .f32) .oge x (Scalar.ofBits (F := Ideal) .f32 0x00000000#32))
    (FloatOps.cmpf (F := Ideal) (φ := .f32) .olt x (Scalar.ofBits (F := Ideal) .f32 0x3F800000#32))

/-- The weight of a confidence: 1 inside [0, 1), 0 outside. -/
def weight (x : EReal) : EReal := (((inUnit x).toNat : ℝ) : EReal)

/-- The weight as the kernel spells it: the bit widened to a word and read signed. -/
theorem weight_signed (x : EReal) : ((((inUnit x).setWidth 32).toInt : ℝ) : EReal) = weight x := by
  unfold weight
  have h : ∀ b : BitVec 1, (b.setWidth 32).toInt = (b.toNat : ℤ) := by decide
  rw [h]
  norm_cast

/-- Whether an entry's bin word reads k. -/
abbrev inBin (P : SArr.Idx → EReal) (k : Fin 20) (a : Fin 16) (h w : Fin 1024) : Prop :=
  (binWord (P (ix3 a h w))).toInt = (k.val : ℤ)

/-- Bin k's count: the weights of the entries in the bin. -/
def count (P : SArr.Idx → EReal) (k : Fin 20) : EReal :=
  ∑ a : Fin 16, ∑ h : Fin 1024, ∑ w : Fin 1024, if inBin P k a h w then weight (P (ix3 a h w)) else 0

/-- Bin k's sum of confidences, each times its weight. -/
def sumConf (P : SArr.Idx → EReal) (k : Fin 20) : EReal :=
  ∑ a : Fin 16, ∑ h : Fin 1024, ∑ w : Fin 1024,
    if inBin P k a h w then P (ix3 a h w) * weight (P (ix3 a h w)) else 0

/-- Bin k's sum of accuracies, each times its confidence's weight. -/
def sumAcc (P T : SArr.Idx → EReal) (k : Fin 20) : EReal :=
  ∑ a : Fin 16, ∑ h : Fin 1024, ∑ w : Fin 1024,
    if inBin P k a h w then T (ix3 a h w) * weight (P (ix3 a h w)) else 0

/-! ## One [1, 1024, 1024] block at a time

The arrays are 16 blocks along their first axis; a bin's statistic over the array is the sum of the block's over the
16 blocks. -/

/-- One block's shape. -/
abbrev SBlk : Shape := ⟨3, ![1, 1024, 1024]⟩

/-- Block a of an array. -/
def blockOf (P : SArr.Idx → EReal) (a : Fin 16) : SBlk.Idx → EReal := fun j => P (ix3 a (j 1) (j 2))

/-- Bin k's count, confidence sum and accuracy sum over one block. -/
def blkCount (X : SBlk.Idx → EReal) (k : Fin 20) : EReal :=
  ∑ h : Fin 1024, ∑ w : Fin 1024,
    if (binWord (X (ix3 (0 : Fin 1) h w))).toInt = (k.val : ℤ) then weight (X (ix3 (0 : Fin 1) h w)) else 0
def blkConf (X : SBlk.Idx → EReal) (k : Fin 20) : EReal :=
  ∑ h : Fin 1024, ∑ w : Fin 1024,
    if (binWord (X (ix3 (0 : Fin 1) h w))).toInt = (k.val : ℤ)
      then X (ix3 (0 : Fin 1) h w) * weight (X (ix3 (0 : Fin 1) h w)) else 0
def blkAcc (X Y : SBlk.Idx → EReal) (k : Fin 20) : EReal :=
  ∑ h : Fin 1024, ∑ w : Fin 1024,
    if (binWord (X (ix3 (0 : Fin 1) h w))).toInt = (k.val : ℤ)
      then Y (ix3 (0 : Fin 1) h w) * weight (X (ix3 (0 : Fin 1) h w)) else 0

theorem count_blocks (P : SArr.Idx → EReal) (k : Fin 20) : count P k = ∑ a : Fin 16, blkCount (blockOf P a) k := rfl
theorem sumConf_blocks (P : SArr.Idx → EReal) (k : Fin 20) : sumConf P k = ∑ a : Fin 16, blkConf (blockOf P a) k := rfl
theorem sumAcc_blocks (P T : SArr.Idx → EReal) (k : Fin 20) :
    sumAcc P T k = ∑ a : Fin 16, blkAcc (blockOf P a) (blockOf T a) k := rfl

/-! ## The calibration error from the per-bin statistics

A bin is valid when its count is positive.  A valid bin contributes |sumConf / count − sumAcc / count|, an invalid bin
nothing (its quotients are taken by 1 and then dropped); the error is the sum of the contributions over the 20 bins,
divided by the number of valid bins, or by 1 when there is none.  Every sum starts from the zero word's value. -/

/-- The value of the zero word and of the word of 1.0. -/
abbrev zeroV : EReal := FloatOps.ofBits (F := Ideal) .f32 0x00000000#32
abbrev oneV : EReal := FloatOps.ofBits (F := Ideal) .f32 0x3F800000#32

/-- The bit saying a count is positive. -/
def valid (cnt : Fin 20 → EReal) (k : Fin 20) : BitVec 1 :=
  FloatOps.cmpf (F := Ideal) (φ := .f32) .ogt (cnt k) zeroV

/-- The divisor of a bin: its count when positive, else 1. -/
def safeCount (cnt : Fin 20 → EReal) (k : Fin 20) : EReal := Scalar.select (valid cnt k) (cnt k) oneV

/-- A bin's gap between mean confidence and mean accuracy. -/
def gap (cnt sp st : Fin 20 → EReal) (k : Fin 20) : EReal :=
  FloatOps.hostAbsf (F := Ideal) (φ := .f32)
    (FloatOps.subf (F := Ideal) (φ := .f32) (FloatOps.hostDivf (F := Ideal) (φ := .f32) (sp k) (safeCount cnt k))
      (FloatOps.hostDivf (F := Ideal) (φ := .f32) (st k) (safeCount cnt k)))

/-- The calibration error of per-bin counts, confidence sums and accuracy sums. -/
def ace (cnt sp st : Fin 20 → EReal) : EReal :=
  FloatOps.hostDivf (F := Ideal) (φ := .f32)
    (zeroV + ∑ k : Fin 20, Scalar.select (valid cnt k) (gap cnt sp st k) zeroV)
    (FloatOps.maximumf (F := Ideal) (φ := .f32)
      (zeroV + ∑ k : Fin 20, FloatOps.uitofp (F := Ideal) .f32 (valid cnt k)) oneV)

/-- The three statistics as triple sums of one function of the entry, spelt out. -/
theorem count_eq (P : SArr.Idx → EReal) (k : Fin 20) :
    count P k = ∑ a : Fin 16, ∑ h : Fin 1024, ∑ w : Fin 1024,
      (fun j : SArr.Idx => if (binWord (P j)).toInt = (k.val : ℤ) then weight (P j) else 0) (ix3 a h w) := rfl
theorem sumConf_eq (P : SArr.Idx → EReal) (k : Fin 20) :
    sumConf P k = ∑ a : Fin 16, ∑ h : Fin 1024, ∑ w : Fin 1024,
      (fun j : SArr.Idx => if (binWord (P j)).toInt = (k.val : ℤ) then P j * weight (P j) else 0) (ix3 a h w) := rfl
theorem sumAcc_eq (P T : SArr.Idx → EReal) (k : Fin 20) :
    sumAcc P T k = ∑ a : Fin 16, ∑ h : Fin 1024, ∑ w : Fin 1024,
      (fun j : SArr.Idx => if (binWord (P j)).toInt = (k.val : ℤ) then T j * weight (P j) else 0) (ix3 a h w) := rfl

/-- A word equals the k-th small non-negative word exactly when it reads k as a signed integer. -/
theorem word_eq_iff (x : BitVec 32) (k : Fin 20) : x = BitVec.ofNat 32 k.val ↔ x.toInt = (k.val : ℤ) := by
  have e : (BitVec.ofNat 32 k.val).toInt = (k.val : ℤ) := by
    have all : ∀ j : Fin 20, (BitVec.ofNat 32 j.val).toInt = (j.val : ℤ) := by decide
    exact all k
  rw [← BitVec.toInt_inj, e]

end Cert.BinSums

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibSumRows.lean ====
/-
  Finite sums in a commutative monoid, re-indexed.

  `sum_fin_rows`: a sum over `n = a * b` consecutive positions is the sum over `a` rows of `b` entries, position
  `b * i + j` being entry `j` of row `i` (the statement takes the summand of the double sum and an equation per
  position, so no cast of an index appears in it). `sum_idx1`, `sum_idx3`: a sum over the indices of a rank-1 or
  rank-3 shape is the sum over its coordinates (the rank-2 form is the library's `ValueIdx.sum_idx2`).
-/
import Idealize.ShloMosaic.Lib.ValueIdx

open scoped BigOperators

namespace Cert.LibSumRows

variable {M : Type*} [AddCommMonoid M]

/-- A sum over `n = a * b` positions is the sum over `a` rows of `b`: position `b * i + j` is entry `j` of row `i`. -/
theorem sum_fin_rows {n a b : ℕ} (hn : n = a * b) (F : Fin n → M) (G : Fin a → Fin b → M)
    (hG : ∀ (i : Fin a) (j : Fin b) (h : b * i.val + j.val < n), F ⟨b * i.val + j.val, h⟩ = G i j) :
    ∑ k, F k = ∑ i, ∑ j, G i j := by
  subst hn
  rw [← finProdFinEquiv.sum_comp, Fintype.sum_prod_type]
  refine Finset.sum_congr rfl fun i _ => Finset.sum_congr rfl fun j _ => ?_
  have e : finProdFinEquiv (i, j) = ⟨b * i.val + j.val, (finProdFinEquiv (i, j)).isLt.trans_eq' (by
      simp [finProdFinEquiv, Nat.add_comm])⟩ := Fin.ext (by simp [finProdFinEquiv, Nat.add_comm])
  rw [e]
  exact hG i j _

open Idealize.ShloMosaic Idealize.ShloMosaic.ValueIdx in
/-- A sum over a rank-1 index set is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

open Idealize.ShloMosaic Idealize.ShloMosaic.ValueIdx in
/-- A sum over a rank-3 index set is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

end Cert.LibSumRows
-- ==== Proof.RefValue.lean ====
/-
  The reference's result is the calibration error of the per-bin statistics.

  The reference flattens both arrays to 16777216 entries, computes every entry's bin word and weight, and accumulates by
  three scatters into 20 zeros: the weights, the confidences times the weights, the accuracies times the weights, each
  entry into the bin its word names.  An accumulating scatter read at bin k is the zero it starts from plus the sum over
  the entries whose word reads k.  Flat position n is entry (n / 1048576, n / 1024 mod 1024, n mod 1024) of the array, so the
  sum over the flat positions is the triple sum over the coordinates, and the three scatters are the count, the
  confidence sum and the accuracy sum of the bin.  The operations after the scatters are the calibration error's own.
-/
import proofs.«143668_j84404697301125_1_alg».proof.Proof.RefRead
import proofs.«143668_j84404697301125_1_alg».proof.Proof.BinSums
import proofs.«143668_j84404697301125_1_alg».proof.Proof.LibScatterAddRows
import proofs.«143668_j84404697301125_1_alg».proof.Proof.LibSumRows
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.BinSums

/-- An array at the ideal values. -/
abbrev Arr := (⟨S16x1024x1024, .f32⟩ : BufTy).Contents (Elt Ideal)

/-- Flat position n names the entry (n / 1048576, n / 1024 mod 1024, n mod 1024). -/
theorem idx_flat (a : Fin 16) (h w : Fin 1024) (hn : 1048576 * a.val + (1024 * h.val + w.val) < 16777216) :
    idx_main_v0 (ix1 ⟨1048576 * a.val + (1024 * h.val + w.val), hn⟩) = ix3 a h w := by
  have ha := a.isLt; have hh := h.isLt; have hw := w.isLt
  funext d
  match d with
  | ⟨0, _⟩ => exact Fin.ext (by show (1048576 * a.val + (1024 * h.val + w.val)) / 1048576 = a.val; omega)
  | ⟨1, _⟩ => exact Fin.ext (by show (1048576 * a.val + (1024 * h.val + w.val)) / 1024 % 1024 = h.val; omega)
  | ⟨2, _⟩ => exact Fin.ext (by show (1048576 * a.val + (1024 * h.val + w.val)) % 1024 = w.val; omega)

/-- A sum over the flat positions of a function of the entry each names is the triple sum over the coordinates. -/
theorem sum_flat {M : Type*} [AddCommMonoid M] (φ : S16x1024x1024.Idx → M) :
    ∑ n : Fin 16777216, φ (idx_main_v0 (ix1 n)) = ∑ a : Fin 16, ∑ h : Fin 1024, ∑ w : Fin 1024, φ (ix3 a h w) := by
  rw [Cert.LibSumRows.sum_fin_rows (n := 16777216) (a := 16) (b := 1048576) (by norm_num) _
    (fun a j => φ (idx_main_v0 (ix1 ⟨1048576 * a.val + j.val, by have := a.isLt; have := j.isLt; omega⟩))) (fun _ _ _ => rfl)]
  refine Finset.sum_congr rfl fun a _ => ?_
  rw [Cert.LibSumRows.sum_fin_rows (n := 1048576) (a := 1024) (b := 1024) (by norm_num) _
    (fun h w => φ (ix3 a h w)) (fun h w hn => by
      have ha := a.isLt; have hh := h.isLt; have hw := w.isLt
      show φ (idx_main_v0 (ix1 ⟨1048576 * a.val + (1024 * h.val + w.val), _⟩)) = _
      rw [idx_flat a h w (by omega)])]

/-- Flat position n's bin word, as the scatters' index column holds it. -/
theorem word_at (P : Arr) (n : Fin 16777216) :
    val_main_v14 (F := Ideal) P (ix2 n (0 : Fin 1)) = binWord (P (idx_main_v0 (ix1 n))) := by
  rw [val_main_v14_apply]
  have e : idx_main_v14 (ix2 n (0 : Fin 1)) = ix1 n := funext fun a => by match a with | ⟨0, _⟩ => rfl
  rw [e]
  simp only [val_main_v6_apply, val_main_call0_v4_apply, val_main_call0_v3_apply, val_main_c_0_apply, val_main_call0_v2_apply,
    val_main_call0_v1_apply, val_main_call0_v0_apply, val_main_c_apply, val_main_v5_apply, val_main_v4_apply, val_main_v3_apply,
    val_main_v2_apply, val_main_cst_apply, val_main_v0_apply]
  rfl

/-- Flat position n's weight. -/
theorem weight_at (P : Arr) (n : Fin 16777216) :
    val_main_v12 (F := Ideal) P (ix1 n) = weight (P (idx_main_v0 (ix1 n))) := by
  simp only [val_main_v12_apply, val_main_v11_apply, val_main_v8_apply, val_main_v10_apply, val_main_v7_apply, val_main_v9_apply,
    val_main_cst_1_apply, val_main_cst_2_apply, val_main_v0_apply]
  rfl

/-- The three scatters start from the zero word's value, which is the real 0. -/
theorem zero_at (k : Fin 20) : val_main_v13 (F := Ideal) (ix1 k) = 0 := by
  rw [val_main_v13_apply, val_main_cst_3_apply]; exact Ideal.ofBits_zero_f32

/-- The three scatters, as functions: the accumulating scatter with no window axis, the operand's one axis inserted and
    scattered to, the index vector along the index column's second axis, of the zero vector, the column of bin words and the
    update vector.  (Stated of the whole vectors: nothing here is read at an entry.) -/
abbrev dims : ScatterDims ⟨1, ![20]⟩ ⟨2, ![16777216, 1]⟩ ⟨1, ![16777216]⟩ :=
  ⟨[], [0], [0], 1, scatter_S20_S16777216x1_S16777216_n_0_0_1_wf⟩
theorem scatter15 (P : Arr) : val_main_v15 (F := Ideal) P
    = Ideal.hostScatterAdd dims (val_main_v13 (F := Ideal)) (val_main_v14 (F := Ideal) P) (val_main_v12 (F := Ideal) P) := rfl
theorem scatter19 (P : Arr) : val_main_v19 (F := Ideal) P
    = Ideal.hostScatterAdd dims (val_main_v13 (F := Ideal)) (val_main_v14 (F := Ideal) P) (val_main_v16 (F := Ideal) P) := rfl
theorem scatter23 (P T : Arr) : val_main_v23 (F := Ideal) P T
    = Ideal.hostScatterAdd dims (val_main_v13 (F := Ideal)) (val_main_v14 (F := Ideal) P) (val_main_v20 (F := Ideal) P T) := rfl

/-- The first scatter at bin k is the bin's count. -/
theorem count_at (P : Arr) (k : Fin 20) : val_main_v15 (F := Ideal) P (ix1 k) = count P k := by
  rw [scatter15, Idealize.ShloMosaic.ScatterAddRows.scatterAdd_vec_apply, zero_at, zero_add, count_eq]
  refine (Finset.sum_congr rfl fun n _ => ?_).trans
    (sum_flat (fun j => if (binWord (P j)).toInt = (k.val : ℤ) then weight (P j) else 0))
  rw [word_at, weight_at]

/-- The second at bin k is the bin's confidence sum. -/
theorem sumConf_at (P : Arr) (k : Fin 20) : val_main_v19 (F := Ideal) P (ix1 k) = sumConf P k := by
  rw [scatter19, Idealize.ShloMosaic.ScatterAddRows.scatterAdd_vec_apply, zero_at, zero_add, sumConf_eq]
  refine (Finset.sum_congr rfl fun n _ => ?_).trans
    (sum_flat (fun j => if (binWord (P j)).toInt = (k.val : ℤ) then P j * weight (P j) else 0))
  rw [word_at, val_main_v16_apply, weight_at, val_main_v0_apply]
  rfl

/-- The third at bin k is the bin's accuracy sum. -/
theorem sumAcc_at (P T : Arr) (k : Fin 20) : val_main_v23 (F := Ideal) P T (ix1 k) = sumAcc P T k := by
  rw [scatter23, Idealize.ShloMosaic.ScatterAddRows.scatterAdd_vec_apply, zero_at, zero_add, sumAcc_eq]
  refine (Finset.sum_congr rfl fun n _ => ?_).trans
    (sum_flat (fun j => if (binWord (P j)).toInt = (k.val : ℤ) then T j * weight (P j) else 0))
  rw [word_at, val_main_v20_apply, weight_at, val_main_v1_apply, show idx_main_v1 (ix1 n) = idx_main_v0 (ix1 n) from rfl]
  rfl

/-! ## The operations after the scatters -/

/-- A 20-vector and a scalar at the ideal values. -/
abbrev Vec20 := FVec Ideal S20 .f32
abbrev Sca := FVec Ideal S_ .f32

/-- The host's sum of a 20-vector from an initial scalar: the scalar plus the sum over the 20 entries. -/
theorem reduce20 (y : Vec20) (z : Sca) (i : S_.Idx) :
    Host.reduceAdd (F := Ideal) y z reducesTo_S20_S_d0 h_S_ i = z (Shape.Idx.first h_S_) + ∑ k : Fin 20, y (ix1 k) := by
  simp only [Host.reduceAdd, Ideal.hostReduceAdd_def]
  rw [Ideal.hostReduceAdd_total reducesTo_S20_S_d0 (fun b => b.elim0) y _ i, Cert.LibSumRows.sum_idx1]

/-- The positive-count mask of a count vector, and the divisors: the count where positive, else 1. -/
def maskOf (c15 : Vec20) : IVec S20 1 := cmpf (F := Ideal) .ogt c15 (val_main_v24 (F := Ideal))
def divisorOf (c15 : Vec20) : Vec20 := select (maskOf c15) c15 (val_main_call1_v1 (F := Ideal))

/-- What the reference computes from the three scattered vectors: the absolute gaps kept on the mask, their sum, and its
    quotient by the number of valid bins or 1. -/
def tailOf (c15 c19 c23 : Vec20) : Sca :=
  Host.divf (F := Ideal)
    (Host.reduceAdd (F := Ideal)
      (select (maskOf c15)
        (Host.absf (F := Ideal) (subf (F := Ideal) (Host.divf (F := Ideal) c19 (divisorOf c15)) (Host.divf (F := Ideal) c23 (divisorOf c15))))
        (val_main_call2_v1 (F := Ideal)))
      (val_main_cst_10 (F := Ideal)) reducesTo_S20_S_d0 h_S_)
    (maximumf (F := Ideal)
      (Host.reduceAdd (F := Ideal) (uitofp (F := Ideal) .f32 (maskOf c15)) (val_main_cst_8 (F := Ideal)) reducesTo_S20_S_d0 h_S_)
      (val_main_cst_11 (F := Ideal)))

/-- It is the calibration error of the three vectors, over any three vectors. -/
theorem tailOf_eq (c15 c19 c23 : Vec20) (i : S_.Idx) :
    tailOf c15 c19 c23 i = ace (fun k => c15 (ix1 k)) (fun k => c19 (ix1 k)) (fun k => c23 (ix1 k)) := by
  unfold tailOf
  show FloatOps.hostDivf (F := Ideal) (φ := .f32)
    (Host.reduceAdd (F := Ideal) (select (maskOf c15)
        (Host.absf (F := Ideal) (subf (F := Ideal) (Host.divf (F := Ideal) c19 (divisorOf c15)) (Host.divf (F := Ideal) c23 (divisorOf c15))))
        (val_main_call2_v1 (F := Ideal))) (val_main_cst_10 (F := Ideal)) reducesTo_S20_S_d0 h_S_ i)
    (FloatOps.maximumf (F := Ideal) (φ := .f32)
      (Host.reduceAdd (F := Ideal) (uitofp (F := Ideal) .f32 (maskOf c15)) (val_main_cst_8 (F := Ideal)) reducesTo_S20_S_d0 h_S_ i)
      (val_main_cst_11 (F := Ideal) i)) = _
  rw [reduce20, reduce20]
  rfl

section
-- the three scatters stay closed here: the next equation only re-brackets the operations after them
attribute [local irreducible] val_main_v15 val_main_v19 val_main_v23

/-- The reference's last stage is that function of its three scatters. -/
theorem result_unfold (P T : Arr) :
    val_main_v36 (F := Ideal) P T
      = tailOf (val_main_v15 (F := Ideal) P) (val_main_v19 (F := Ideal) P) (val_main_v23 (F := Ideal) P T) := rfl
end

/-- The reference's result: the calibration error of the per-bin statistics of its two arguments. -/
theorem result_eq (P T : Arr) :
    val_main_v36 (F := Ideal) P T = fun _ => ace (count P) (sumConf P) (sumAcc P T) := by
  funext i
  have e1 : (fun k : Fin 20 => val_main_v15 (F := Ideal) P (ix1 k)) = count P := funext fun k => count_at P k
  have e2 : (fun k : Fin 20 => val_main_v19 (F := Ideal) P (ix1 k)) = sumConf P := funext fun k => sumConf_at P k
  have e3 : (fun k : Fin 20 => val_main_v23 (F := Ideal) P T (ix1 k)) = sumAcc P T := funext fun k => sumAcc_at P T k
  rw [result_unfold, tailOf_eq, e1, e2, e3]

end Cert.ReferenceIdeal.RefValue

end
-- ==== Proof.PointValue.lean ====
/-
  What one grid point leaves in the output block.

  The body loads the confidence block and the accuracy block, runs the 20-trip loop that carries three [1, 128] rows
  (counts, confidence sums, accuracy sums: trip b adds, in lane b only, the block's sum over the entries of bin b),
  stacks the three rows into a [3, 128] block and adds it to what the output block holds.  At the first point of a group
  the block is first set to zero and that zero is what is read back; at every other point the block holds what the
  point before left.  So a first point leaves zero + stack, any other point previous + stack.
-/
import proofs.«143668_j84404697301125_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValue

open Cert.KernelIdeal Cert.KernelIdeal.Gen

variable {F : FTy → Type} [FloatOps F]

theorem hz : (![0, 0, 0] : Fin 3 → Nat) = fun _ => 0 := funext fun a => by fin_cases a <;> rfl

/-- The three rows the loop ends with, from a confidence block x0 and an accuracy block x1. -/
def rows (x0 x1 : Vec F S1x1024x1024 .f32) : FVec F S1x128 .f32 × FVec F S1x128 .f32 × FVec F S1x128 .f32 :=
  Scf.fold (fun a a_1 => (k0_pay9 x0 a a_1.1, k0_pay10 x0 a a_1.2.1, k0_pay11 x0 x1 a a_1.2.2))
    (k0_pay4 (F := F), k0_pay5 (F := F), k0_pay6 (F := F))

/-- What a point leaves over block contents xo: xo plus the stack of the three rows. -/
def leaves (x0 x1 : Vec F S1x1024x1024 .f32) (xo : Vec F S1x3x128 .f32) : Vec F S1x3x128 .f32 :=
  k0_pay1 (k0_pay12 (rows x0 x1).1 (rows x0 x1).2.1 (rows x0 x1).2.2 xo)

/-- A point that is not the first of its group leaves, over the previous contents xo, xo plus the stack. -/
theorem out_B (c : Dev nD) (i : grid0.Coords) (a2 : Memref sig .tc .vmem S1x1024x1024 .f32) (h2 : a2.IsWhole)
    (a3 : Memref sig .tc .vmem S1x1024x1024 .f32) (h3 : a3.IsWhole) (a4 : Memref sig .tc .vmem S1x3x128 .f32) (h4 : a4.IsWhole)
    (hc : ¬cond0_0 i) (x0 x1 : Vec F S1x1024x1024 .f32) (xo : Vec F S1x3x128 .f32) :
    out0_B_2 c i a2 h2 a3 h3 a4 h4 hc x0 x1 xo = leaves x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  unfold leaves rows
  simp only [View.readAt_eq_ld, h2.read_unread, h3.read_unread, h4.read_unread, View.ld_unit_zero (S := S1x1024x1024) hz,
    View.ld_unit_zero (S := S1x3x128) hz]

/-- The first point of a group sets the block to zero, reads that back, and leaves zero plus the stack. -/
theorem out_A (c : Dev nD) (i : grid0.Coords) (a2 : Memref sig .tc .vmem S1x1024x1024 .f32) (h2 : a2.IsWhole)
    (a3 : Memref sig .tc .vmem S1x1024x1024 .f32) (h3 : a3.IsWhole) (a4 : Memref sig .tc .vmem S1x3x128 .f32) (h4 : a4.IsWhole)
    (hc : cond0_0 i) (x0 x1 : Vec F S1x1024x1024 .f32) :
    out0_A_2 c i a2 h2 a3 h3 a4 h4 hc x0 x1 = leaves x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x3x128) hz, View.readCov_unit_zero (S := S1x3x128) _ hz]
  unfold leaves rows
  simp only [View.readAt_eq_ld, h2.read_unread, h3.read_unread, View.ld_unit_zero (S := S1x1024x1024) hz,
    View.ld_unit_zero (S := S1x3x128) hz]

end Cert.KernelIdeal.PointValue

end
-- ==== Proof.LibLoopSums.lean ====
/-
  A counted loop that carries three accumulators and, at every trip, adds to each a term depending on the trip alone.

  Such a loop issues no memory operation, so it is the fold of its yield over the trips in order.  Over commutative
  monoids the fold of "add the trip's term" from an initial value is that value plus the sum of the terms, and three
  accumulators updated side by side do not interact: each component of the result is its own initial value plus its own
  sum over the trips.
-/
import Idealize.ShloMosaic.Lib.Exec.Context
import Mathlib.Algebra.BigOperators.Fin

open scoped BigOperators

namespace Idealize.ShloMosaic.LoopSums

/-- Folding "add f k" over a list from init gives init plus the list's sum of f. -/
theorem foldl_add {ι M : Type*} [AddCommMonoid M] (f : ι → M) (l : List ι) (init : M) :
    l.foldl (fun acc k => acc + f k) init = init + (l.map f).sum := by
  induction l generalizing init with
  | nil => simp
  | cons a l ih => rw [List.foldl_cons, ih, List.map_cons, List.sum_cons, add_assoc]

/-- Three accumulators folded side by side: each is its initial value plus its own list sum. -/
theorem foldl_add3 {ι M₁ M₂ M₃ : Type*} [AddCommMonoid M₁] [AddCommMonoid M₂] [AddCommMonoid M₃]
    (f₁ : ι → M₁) (f₂ : ι → M₂) (f₃ : ι → M₃) (l : List ι) (init : M₁ × M₂ × M₃) :
    l.foldl (fun acc k => (acc.1 + f₁ k, acc.2.1 + f₂ k, acc.2.2 + f₃ k)) init
      = (init.1 + (l.map f₁).sum, init.2.1 + (l.map f₂).sum, init.2.2 + (l.map f₃).sum) := by
  induction l generalizing init with
  | nil => simp
  | cons a l ih => rw [List.foldl_cons, ih]; simp only [List.map_cons, List.sum_cons, add_assoc]

/-- The loop's result: each accumulator ends at its initial value plus the sum of its terms over the trips. -/
theorem fold_add3 {n : ℕ} {M₁ M₂ M₃ : Type} [AddCommMonoid M₁] [AddCommMonoid M₂] [AddCommMonoid M₃]
    (f₁ : Fin n → M₁) (f₂ : Fin n → M₂) (f₃ : Fin n → M₃) (init : M₁ × M₂ × M₃) :
    Scf.fold (fun k acc => (acc.1 + f₁ k, acc.2.1 + f₂ k, acc.2.2 + f₃ k)) init
      = (init.1 + ∑ k, f₁ k, init.2.1 + ∑ k, f₂ k, init.2.2 + ∑ k, f₃ k) := by
  rw [Scf.fold_eq, foldl_add3, Fin.sum_univ_def, Fin.sum_univ_def, Fin.sum_univ_def]

/-- The same for a yield only known, by an equation, to be of that form. -/
theorem fold_add3_of {n : ℕ} {M₁ M₂ M₃ : Type} [AddCommMonoid M₁] [AddCommMonoid M₂] [AddCommMonoid M₃]
    (g : Fin n → M₁ × M₂ × M₃ → M₁ × M₂ × M₃) (f₁ : Fin n → M₁) (f₂ : Fin n → M₂) (f₃ : Fin n → M₃)
    (hg : ∀ k acc, g k acc = (acc.1 + f₁ k, acc.2.1 + f₂ k, acc.2.2 + f₃ k)) (init : M₁ × M₂ × M₃) :
    Scf.fold g init = (init.1 + ∑ k, f₁ k, init.2.1 + ∑ k, f₂ k, init.2.2 + ∑ k, f₃ k) := by
  have e : g = fun k acc => (acc.1 + f₁ k, acc.2.1 + f₂ k, acc.2.2 + f₃ k) := funext fun k => funext fun acc => hg k acc
  rw [e]
  exact fold_add3 f₁ f₂ f₃ init

end Idealize.ShloMosaic.LoopSums
-- ==== Proof.PointSums.lean ====
/-
  One grid point's contribution, read entry by entry at the ideal values.

  At trip b the loop selects, over the point's [1024, 1024] confidence block, the weight of every entry whose bin word is
  b (zero elsewhere), sums that selection — alone, times the confidence, and times the accuracy — over the whole block, and
  adds each total into lane b of its row (the lane indicator is 1 in lane b and 0 elsewhere).  After the 20 trips lane k
  of the three rows holds bin k's count, confidence sum and accuracy sum over the block, for k below 20.
-/
import proofs.«143668_j84404697301125_1_alg».proof.Proof.PointValue
import proofs.«143668_j84404697301125_1_alg».proof.Proof.LibLoopSums
import proofs.«143668_j84404697301125_1_alg».proof.Proof.BinSums
import proofs.«143668_j84404697301125_1_alg».proof.Proof.LibSumRows
import Idealize.ShloMosaic.PureOps.Ideal.Laws
import Idealize.ShloMosaic.Lib.ValueIdx
import Idealize.ShloMosaic.Lib.Pipeline.Value
import Idealize.ShloMosaic.Lib.Affine

noncomputable section

open scoped BigOperators
open Idealize.ShloMosaic Idealize.ShloMosaic.TcCoe Idealize.SL.Sem Idealize.ShloMosaic.ValueIdx

namespace Cert.KernelIdeal.PointSums

open Cert.KernelIdeal Cert.KernelIdeal.Gen Cert.KernelIdeal.PointValue

/-- A block of confidences or accuracies, and one of the loop's rows, at the ideal values. -/
abbrev Blk := Vec Ideal S1x1024x1024 .f32
abbrev Row := FVec Ideal S1x128 .f32

/-- The loop runs 20 trips. -/
theorem trips_eq : k0_t1_loop.trips = 20 := by decide

/-- A sum of a whole [1, 1024, 1024] block into one number, read out of its [1] result: the sum over every entry. -/
theorem total_read (v : FVec Ideal S1x1024x1024 .f32) :
    extractAt ![0, 0, 0] (shapeCast S1x1x1 (multiReduction .add [1, 2] S1 v 0x00000000#32 reduces_S1x1024x1024_S1 (.inl rfl) rfl)
      shapeCasts_S1_S1x1x1) inpos_S1x1x1_p0_0_0 = ∑ i : S1x1024x1024.Idx, v i := by
  unfold extractAt shapeCast
  exact Ideal.multiReduction_add_total v _ reduces_S1x1024x1024_S1 (fun b => by fin_cases b; rfl) _ _ _

/-- Trip k's selection over the block: the weight where the bin word is the trip's, zero elsewhere — as a [1, 1024, 1024] block. -/
abbrev sel (x0 : Blk) (k : Fin k0_t1_loop.trips) : FVec Ideal S1x1024x1024 .f32 :=
  shapeCast S1x1024x1024 (k0_pay7 x0 k) shapeCasts_S1024x1024_S1x1024x1024
abbrev selConf (x0 : Blk) (k : Fin k0_t1_loop.trips) : FVec Ideal S1x1024x1024 .f32 :=
  shapeCast S1x1024x1024 (mulf (k0_pay7 x0 k) (k0_pay3 x0)) shapeCasts_S1024x1024_S1x1024x1024
abbrev selAcc (x0 x1 : Blk) (k : Fin k0_t1_loop.trips) : FVec Ideal S1x1024x1024 .f32 :=
  shapeCast S1x1024x1024 (mulf (k0_pay7 x0 k) (shapeCast S1024x1024 x1 shapeCasts_S1x1024x1024_S1024x1024)) shapeCasts_S1024x1024_S1x1024x1024

/-- The three yields of a trip, at an entry of their rows: what was carried plus the lane indicator times the block total. -/
theorem pay9_at (x0 : Blk) (k : Fin k0_t1_loop.trips) (acc : Row) (i : S1x128.Idx) :
    k0_pay9 x0 k acc i = acc i + k0_pay8 (F := Ideal) k i * ∑ j, sel x0 k j := by
  unfold k0_pay9
  dsimp only
  rw [total_read]
  generalize (∑ j, sel x0 k j) = s
  rfl

theorem pay10_at (x0 : Blk) (k : Fin k0_t1_loop.trips) (acc : Row) (i : S1x128.Idx) :
    k0_pay10 x0 k acc i = acc i + k0_pay8 (F := Ideal) k i * ∑ j, selConf x0 k j := by
  unfold k0_pay10
  dsimp only
  rw [total_read]
  generalize (∑ j, selConf x0 k j) = s
  rfl

theorem pay11_at (x0 x1 : Blk) (k : Fin k0_t1_loop.trips) (acc : Row) (i : S1x128.Idx) :
    k0_pay11 x0 x1 k acc i = acc i + k0_pay8 (F := Ideal) k i * ∑ j, selAcc x0 x1 k j := by
  unfold k0_pay11
  dsimp only
  rw [total_read]
  generalize (∑ j, selAcc x0 x1 k j) = s
  rfl

/-- A trip's term for a row: the trip's lane indicator times a total. -/
def laneTerm (k : Fin k0_t1_loop.trips) (tot : EReal) : Row := fun i => k0_pay8 (F := Ideal) k i * tot

/-- The three rows after the loop: each starts at its zero row and gains every trip's term. -/
theorem rows_eq (x0 x1 : Blk) :
    rows x0 x1 = (k0_pay4 (F := Ideal) + ∑ k, laneTerm k (∑ j, sel x0 k j),
      k0_pay5 (F := Ideal) + ∑ k, laneTerm k (∑ j, selConf x0 k j),
      k0_pay6 (F := Ideal) + ∑ k, laneTerm k (∑ j, selAcc x0 x1 k j)) := by
  unfold rows
  refine Idealize.ShloMosaic.LoopSums.fold_add3_of _ _ _ _ (fun k acc => ?_) _
  refine Prod.ext (funext fun i => ?_) (Prod.ext (funext fun i => ?_) (funext fun i => ?_))
  · exact pay9_at x0 k acc.1 i
  · exact pay10_at x0 k acc.2.1 i
  · exact pay11_at x0 x1 k acc.2.2 i

/-- The induction word of trip k is the word k. -/
theorem iv_eq (k : ℕ) : Scf.iv 0#32 1#32 k = BitVec.ofNat 32 k := by simp [Scf.iv]

/-- The lane indicator of trip k is 1 in lane k and 0 in every other lane. -/
theorem lane_ind (k : Fin k0_t1_loop.trips) (l : Fin 128) :
    k0_pay8 (F := Ideal) k (ix2 (0 : Fin 1) l) = if l.val = k.val then 1 else 0 := by
  have hk : k.val < 20 := lt_of_lt_of_eq k.isLt trips_eq
  have hl := l.isLt
  unfold k0_pay8
  dsimp only
  show ((((IntOp.cmpi .eq (iota .tc S1x128 32 [1] iota_S1x128_d1_w32 (ix2 (0 : Fin 1) l)) (Scf.iv 0#32 1#32 k.val)).setWidth 32).toInt : ℝ) : EReal) = _
  rw [iota_single_apply, iv_eq]
  show ((((IntOp.cmpi .eq (BitVec.ofNat 32 l.val) (BitVec.ofNat 32 k.val)).setWidth 32).toInt : ℝ) : EReal) = _
  by_cases h : l.val = k.val
  · rw [if_pos h, h]
    have : IntOp.cmpi .eq (BitVec.ofNat 32 k.val) (BitVec.ofNat 32 k.val) = 1#1 := IntOp.cmpi_eq.mpr rfl
    rw [this]
    norm_num
  · rw [if_neg h]
    have hne : BitVec.ofNat 32 l.val ≠ BitVec.ofNat 32 k.val := by
      intro e
      have := congrArg BitVec.toNat e
      simp only [BitVec.toNat_ofNat] at this
      omega
    have : IntOp.cmpi .eq (BitVec.ofNat 32 l.val) (BitVec.ofNat 32 k.val) = 0#1 := by
      have h1 : IntOp.cmpi .eq (BitVec.ofNat 32 l.val) (BitVec.ofNat 32 k.val) ≠ 1#1 := fun e => hne (IntOp.cmpi_eq.mp e)
      revert h1; generalize IntOp.cmpi .eq (BitVec.ofNat 32 l.val) (BitVec.ofNat 32 k.val) = b; revert b; decide
    rw [this]
    norm_num

/-! ## A trip's block totals are the block's statistics of the trip's bin -/

open Cert.BinSums

/-- The block viewed [1024, 1024] reads entry (h, w) at the block's (0, h, w). -/
theorem flat_at (x : Blk) (h w : Fin 1024) : k0_pay3 x (ix2 h w) = x (ix3 (0 : Fin 1) h w) := by
  unfold k0_pay3
  rw [shapeCast_dropUnit_apply]
  congr 1
  funext a
  match a with
  | ⟨0, _⟩ => rfl
  | ⟨1, _⟩ => rfl
  | ⟨2, _⟩ => rfl

/-- An index (0, h, w) of a [1, 1024, 1024] block with its unit axis dropped is (h, w). -/
theorem drop_ix3 (h w : Fin 1024) :
    (fun a : Fin 2 => (ix3 (0 : Fin 1) h w : S1x1024x1024.Idx) a.succ) = (ix2 h w : S1024x1024.Idx) := by
  funext a
  match a with
  | ⟨0, _⟩ => rfl
  | ⟨1, _⟩ => rfl

/-- Trip k's selection at entry (h, w): the entry's weight when its bin word reads k, zero otherwise. -/
theorem pay7_at (x0 : Blk) (k : Fin k0_t1_loop.trips) (kk : Fin 20) (hkk : kk.val = k.val) (h w : Fin 1024) :
    k0_pay7 x0 k (ix2 h w)
      = if (binWord (x0 (ix3 (0 : Fin 1) h w))).toInt = (kk.val : ℤ) then weight (x0 (ix3 (0 : Fin 1) h w)) else 0 := by
  unfold k0_pay7
  show Scalar.select (IntOp.cmpi .eq (binWord (k0_pay3 x0 (ix2 h w))) (Scf.iv 0#32 1#32 k.val))
      ((((inUnit (k0_pay3 x0 (ix2 h w))).setWidth 32).toInt : ℝ) : EReal) (Ideal.ofBits .f32 0x00000000#32) = _
  rw [flat_at, iv_eq, weight_signed, Ideal.ofBits_zero_f32, ← hkk]
  unfold Scalar.select
  by_cases hb : (binWord (x0 (ix3 (0 : Fin 1) h w))).toInt = (kk.val : ℤ)
  · rw [if_pos hb]
    exact if_pos (IntOp.cmpi_eq.mpr ((word_eq_iff _ kk).mpr hb))
  · rw [if_neg hb]
    exact if_neg (fun e => hb ((word_eq_iff _ kk).mp (IntOp.cmpi_eq.mp e)))

/-- The accuracy block viewed [1024, 1024] likewise. -/
theorem flat1_at (x : Blk) (h w : Fin 1024) :
    shapeCast S1024x1024 x shapeCasts_S1x1024x1024_S1024x1024 (ix2 h w) = x (ix3 (0 : Fin 1) h w) := flat_at x h w

theorem sel_total (x0 : Blk) (k : Fin k0_t1_loop.trips) (kk : Fin 20) (hkk : kk.val = k.val) :
    ∑ j, sel x0 k j = blkCount x0 kk := by
  rw [Cert.LibSumRows.sum_idx3, Fin.sum_univ_one]
  unfold blkCount
  refine Finset.sum_congr rfl fun h _ => Finset.sum_congr rfl fun w _ => ?_
  show shapeCast S1x1024x1024 (k0_pay7 x0 k) shapeCasts_S1024x1024_S1x1024x1024 (ix3 (0 : Fin 1) h w) = _
  rw [shapeCast_addUnit_apply, drop_ix3, pay7_at x0 k kk hkk]

theorem selConf_total (x0 : Blk) (k : Fin k0_t1_loop.trips) (kk : Fin 20) (hkk : kk.val = k.val) :
    ∑ j, selConf x0 k j = blkConf x0 kk := by
  rw [Cert.LibSumRows.sum_idx3, Fin.sum_univ_one]
  unfold blkConf
  refine Finset.sum_congr rfl fun h _ => Finset.sum_congr rfl fun w _ => ?_
  show shapeCast S1x1024x1024 (mulf (k0_pay7 x0 k) (k0_pay3 x0)) shapeCasts_S1024x1024_S1x1024x1024 (ix3 (0 : Fin 1) h w) = _
  rw [shapeCast_addUnit_apply, drop_ix3, mulf_apply, pay7_at x0 k kk hkk, flat_at]
  by_cases hb : (binWord (x0 (ix3 (0 : Fin 1) h w))).toInt = (kk.val : ℤ)
  · rw [if_pos hb, if_pos hb, mul_comm]
  · rw [if_neg hb, if_neg hb, zero_mul]

theorem selAcc_total (x0 x1 : Blk) (k : Fin k0_t1_loop.trips) (kk : Fin 20) (hkk : kk.val = k.val) :
    ∑ j, selAcc x0 x1 k j = blkAcc x0 x1 kk := by
  rw [Cert.LibSumRows.sum_idx3, Fin.sum_univ_one]
  unfold blkAcc
  refine Finset.sum_congr rfl fun h _ => Finset.sum_congr rfl fun w _ => ?_
  show shapeCast S1x1024x1024 (mulf (k0_pay7 x0 k) (shapeCast S1024x1024 x1 shapeCasts_S1x1024x1024_S1024x1024))
    shapeCasts_S1024x1024_S1x1024x1024 (ix3 (0 : Fin 1) h w) = _
  rw [shapeCast_addUnit_apply, drop_ix3, mulf_apply, pay7_at x0 k kk hkk, flat1_at]
  by_cases hb : (binWord (x0 (ix3 (0 : Fin 1) h w))).toInt = (kk.val : ℤ)
  · rw [if_pos hb, if_pos hb, mul_comm]
  · rw [if_neg hb, if_neg hb, zero_mul]

/-! ## The rows at a lane below 20 -/

/-- Summed over the trips, the lane terms leave in lane k the total of trip k. -/
theorem lane_sum (T : Fin k0_t1_loop.trips → EReal) (kk : Fin 20) :
    (∑ k, laneTerm k (T k)) (ix2 (0 : Fin 1) (⟨kk.val, by have := kk.isLt; omega⟩ : Fin 128))
      = T ⟨kk.val, by rw [trips_eq]; exact kk.isLt⟩ := by
  rw [Finset.sum_apply, Finset.sum_eq_single (⟨kk.val, by rw [trips_eq]; exact kk.isLt⟩ : Fin k0_t1_loop.trips)]
  · unfold laneTerm; rw [lane_ind, if_pos rfl, one_mul]
  · intro b _ hb
    unfold laneTerm
    rw [lane_ind, if_neg (fun e => hb (Fin.ext e.symm)), zero_mul]
  · intro h; exact absurd (Finset.mem_univ _) h

/-- The zero rows the loop starts from. -/
theorem zero4 (i : S1x128.Idx) : k0_pay4 (F := Ideal) i = 0 := by unfold k0_pay4; exact Ideal.ofBits_zero_f32
theorem zero5 (i : S1x128.Idx) : k0_pay5 (F := Ideal) i = 0 := by unfold k0_pay5; exact Ideal.ofBits_zero_f32
theorem zero6 (i : S1x128.Idx) : k0_pay6 (F := Ideal) i = 0 := by unfold k0_pay6; exact Ideal.ofBits_zero_f32

/-- Lane k of the three rows: bin k's count, confidence sum and accuracy sum over the block. -/
theorem rows_at (x0 x1 : Blk) (kk : Fin 20) :
    (rows x0 x1).1 (ix2 (0 : Fin 1) (⟨kk.val, by have := kk.isLt; omega⟩ : Fin 128)) = blkCount x0 kk
    ∧ (rows x0 x1).2.1 (ix2 (0 : Fin 1) (⟨kk.val, by have := kk.isLt; omega⟩ : Fin 128)) = blkConf x0 kk
    ∧ (rows x0 x1).2.2 (ix2 (0 : Fin 1) (⟨kk.val, by have := kk.isLt; omega⟩ : Fin 128)) = blkAcc x0 x1 kk := by
  rw [rows_eq]
  refine ⟨?_, ?_, ?_⟩
  · show k0_pay4 (F := Ideal) _ + (∑ k, laneTerm k (∑ j, sel x0 k j)) _ = _
    rw [zero4, zero_add, lane_sum (fun k => ∑ j, sel x0 k j) kk]
    exact sel_total x0 _ kk rfl
  · show k0_pay5 (F := Ideal) _ + (∑ k, laneTerm k (∑ j, selConf x0 k j)) _ = _
    rw [zero5, zero_add, lane_sum (fun k => ∑ j, selConf x0 k j) kk]
    exact selConf_total x0 _ kk rfl
  · show k0_pay6 (F := Ideal) _ + (∑ k, laneTerm k (∑ j, selAcc x0 x1 k j)) _ = _
    rw [zero6, zero_add, lane_sum (fun k => ∑ j, selAcc x0 x1 k j) kk]
    exact selAcc_total x0 x1 _ kk rfl

/-! ## What a point leaves, at an entry -/

/-- An index (0, r, l) of the output block with its unit axis dropped is (r, l). -/
theorem drop_out (r : Fin 3) (l : Fin 128) :
    (fun a : Fin 2 => (ix3 (0 : Fin 1) r l : S1x3x128.Idx) a.succ) = (ix2 r l : S3x128.Idx) := by
  funext a
  match a with
  | ⟨0, _⟩ => rfl
  | ⟨1, _⟩ => rfl

/-- The output block viewed [3, 128] reads (r, l) at the block's (0, r, l). -/
theorem prev_at (xo : Vec Ideal S1x3x128 .f32) (r : Fin 3) (l : Fin 128) :
    shapeCast S3x128 xo shapeCasts_S1x3x128_S3x128 (ix2 r l) = xo (ix3 (0 : Fin 1) r l) := by
  rw [shapeCast_dropUnit_apply]
  congr 1
  funext a
  match a with
  | ⟨0, _⟩ => rfl
  | ⟨1, _⟩ => rfl
  | ⟨2, _⟩ => rfl

/-- The stack of three rows reads row r, lane l, in row number r at lane l. -/
theorem stack_at0 (a b c : Row) (l : Fin 128) :
    concatenate S3x128 0 [⟨S1x128, a⟩, ⟨S1x128, b⟩, ⟨S1x128, c⟩] concatenates_S1x128_S1x128_S1x128_S3x128_d0 (ix2 (0 : Fin 3) l)
      = a (ix2 (0 : Fin 1) l) :=
  concatenate_apply_piece (t := S3x128) (0 : Fin 2) [⟨S1x128, a⟩, ⟨S1x128, b⟩, ⟨S1x128, c⟩]
    concatenates_S1x128_S1x128_S1x128_S3x128_d0 (ix2 (0 : Fin 3) l) 0 (by simp) S1x128 a rfl rfl 0 rfl (ix2 (0 : Fin 1) l)
    (fun d hd => by match d with | ⟨0, _⟩ => exact absurd rfl hd | ⟨1, _⟩ => rfl) rfl

theorem stack_at1 (a b c : Row) (l : Fin 128) :
    concatenate S3x128 0 [⟨S1x128, a⟩, ⟨S1x128, b⟩, ⟨S1x128, c⟩] concatenates_S1x128_S1x128_S1x128_S3x128_d0 (ix2 (1 : Fin 3) l)
      = b (ix2 (0 : Fin 1) l) :=
  concatenate_apply_piece (t := S3x128) (0 : Fin 2) [⟨S1x128, a⟩, ⟨S1x128, b⟩, ⟨S1x128, c⟩]
    concatenates_S1x128_S1x128_S1x128_S3x128_d0 (ix2 (1 : Fin 3) l) 1 (by simp) S1x128 b rfl rfl 1 rfl (ix2 (0 : Fin 1) l)
    (fun d hd => by match d with | ⟨0, _⟩ => exact absurd rfl hd | ⟨1, _⟩ => rfl) rfl

theorem stack_at2 (a b c : Row) (l : Fin 128) :
    concatenate S3x128 0 [⟨S1x128, a⟩, ⟨S1x128, b⟩, ⟨S1x128, c⟩] concatenates_S1x128_S1x128_S1x128_S3x128_d0 (ix2 (2 : Fin 3) l)
      = c (ix2 (0 : Fin 1) l) :=
  concatenate_apply_piece (t := S3x128) (0 : Fin 2) [⟨S1x128, a⟩, ⟨S1x128, b⟩, ⟨S1x128, c⟩]
    concatenates_S1x128_S1x128_S1x128_S3x128_d0 (ix2 (2 : Fin 3) l) 2 (by simp) S1x128 c rfl rfl 2 rfl (ix2 (0 : Fin 1) l)
    (fun d hd => by match d with | ⟨0, _⟩ => exact absurd rfl hd | ⟨1, _⟩ => rfl) rfl

/-- What a point leaves at (0, r, l): the previous contents there plus the stack at (r, l). -/
theorem leaves_at (x0 x1 : Blk) (xo : Vec Ideal S1x3x128 .f32) (r : Fin 3) (l : Fin 128) :
    leaves x0 x1 xo (ix3 (0 : Fin 1) r l) = xo (ix3 (0 : Fin 1) r l)
      + concatenate S3x128 0 [⟨S1x128, (rows x0 x1).1⟩, ⟨S1x128, (rows x0 x1).2.1⟩, ⟨S1x128, (rows x0 x1).2.2⟩]
          concatenates_S1x128_S1x128_S1x128_S3x128_d0 (ix2 r l) := by
  unfold leaves k0_pay1 k0_pay12
  rw [shapeCast_addUnit_apply, drop_out, addf_apply, prev_at]

/-- Lane k (k below 20) of the output block's three rows after a point: the previous contents plus bin k's count,
    confidence sum and accuracy sum over the point's block. -/
abbrev lane (kk : Fin 20) : Fin 128 := ⟨kk.val, by have := kk.isLt; omega⟩

theorem leaves_count (x0 x1 : Blk) (xo : Vec Ideal S1x3x128 .f32) (kk : Fin 20) :
    leaves x0 x1 xo (ix3 (0 : Fin 1) (0 : Fin 3) (lane kk)) = xo (ix3 (0 : Fin 1) (0 : Fin 3) (lane kk)) + blkCount x0 kk := by
  rw [leaves_at, stack_at0, (rows_at x0 x1 kk).1]
theorem leaves_conf (x0 x1 : Blk) (xo : Vec Ideal S1x3x128 .f32) (kk : Fin 20) :
    leaves x0 x1 xo (ix3 (0 : Fin 1) (1 : Fin 3) (lane kk)) = xo (ix3 (0 : Fin 1) (1 : Fin 3) (lane kk)) + blkConf x0 kk := by
  rw [leaves_at, stack_at1, (rows_at x0 x1 kk).2.1]
theorem leaves_acc (x0 x1 : Blk) (xo : Vec Ideal S1x3x128 .f32) (kk : Fin 20) :
    leaves x0 x1 xo (ix3 (0 : Fin 1) (2 : Fin 3) (lane kk)) = xo (ix3 (0 : Fin 1) (2 : Fin 3) (lane kk)) + blkAcc x0 x1 kk := by
  rw [leaves_at, stack_at2, (rows_at x0 x1 kk).2.2]

/-- The block a group's first point stores before accumulating is zero everywhere. -/
theorem zero_block (j : S1x3x128.Idx) : k0_pay2 (F := Ideal) j = 0 := by
  unfold k0_pay2
  rw [shapeCast_addUnit_apply]
  exact Ideal.ofBits_zero_f32

end Cert.KernelIdeal.PointSums

end
-- ==== Proof.GroupSums.lean ====
/-
  What the output block holds after each grid point.

  The 16 points run in two groups of 8; point n handles block n of the arrays.  A group's first point starts the
  output block from zero and every later point adds to what the one before left, so after point n lane k of the block's
  three rows holds bin k's count, confidence sum and accuracy sum over the blocks of n's group up to n: the blocks
  8·(n / 8), …, n.
-/
import proofs.«143668_j84404697301125_1_alg».proof.Proof.PointSums

noncomputable section

open scoped BigOperators
open Idealize.ShloMosaic Idealize.ShloMosaic.TcCoe Idealize.SL.Sem Idealize.ShloMosaic.ValueIdx

namespace Cert.KernelIdeal.GroupSums

open Cert.KernelIdeal Cert.KernelIdeal.Gen Cert.KernelIdeal.PointValue Cert.KernelIdeal.PointSums Cert.BinSums

variable (m : (ℓ : Loc nD τ sig) → Buf (Elt Ideal) ℓ)

/-- The confidence block and the accuracy block point t is given. -/
abbrev conf (c : Dev nD) (t : Fin cfg0.N) : Blk := iblk m c 0 t
abbrev accu (c : Dev nD) (t : Fin cfg0.N) : Blk := iblk m c 1 t

/-- Bin k's statistics over the block of point n (zero past the grid). -/
def ptCount (c : Dev nD) (kk : Fin 20) (n : ℕ) : EReal := if h : n < cfg0.N then blkCount (conf m c ⟨n, h⟩) kk else 0
def ptConf (c : Dev nD) (kk : Fin 20) (n : ℕ) : EReal := if h : n < cfg0.N then blkConf (conf m c ⟨n, h⟩) kk else 0
def ptAcc (c : Dev nD) (kk : Fin 20) (n : ℕ) : EReal :=
  if h : n < cfg0.N then blkAcc (conf m c ⟨n, h⟩) (accu m c ⟨n, h⟩) kk else 0

/-- After point n, lane k of the output block's rows holds the group's statistics so far. -/
theorem outsAt_eq (c : Dev nD) (kk : Fin 20) : ∀ (n : ℕ) (h : n < cfg0.N),
    outsAt0 m c n h (ix3 (0 : Fin 1) (0 : Fin 3) (lane kk)) = ∑ j ∈ Finset.range (n % 8 + 1), ptCount m c kk (8 * (n / 8) + j)
    ∧ outsAt0 m c n h (ix3 (0 : Fin 1) (1 : Fin 3) (lane kk)) = ∑ j ∈ Finset.range (n % 8 + 1), ptConf m c kk (8 * (n / 8) + j)
    ∧ outsAt0 m c n h (ix3 (0 : Fin 1) (2 : Fin 3) (lane kk)) = ∑ j ∈ Finset.range (n % 8 + 1), ptAcc m c kk (8 * (n / 8) + j)
  | 0, h => by
    rw [outsAt0_A m c ⟨0, h⟩ rfl,
      out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _
        (conf m c ⟨0, h⟩) (accu m c ⟨0, h⟩),
      leaves_count, leaves_conf, leaves_acc, zero_block, zero_block, zero_block]
    simp only [zero_add, Nat.zero_mod, Nat.zero_div, Nat.mul_zero, Finset.sum_range_one, ptCount, ptConf, ptAcc, dif_pos h]
    refine ⟨?_, ?_, ?_⟩ <;> first | rfl | trivial
  | n + 1, h => by
    have hN : cfg0.N = 16 := N_0
    by_cases h0 : (n + 1) % 8 = 0
    · rw [outsAt0_A m c ⟨n + 1, h⟩ h0,
        out_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) _ (conf m c ⟨n + 1, h⟩) (accu m c ⟨n + 1, h⟩),
        leaves_count, leaves_conf, leaves_acc, zero_block, zero_block, zero_block]
      have e : 8 * ((n + 1) / 8) + 0 = n + 1 := by omega
      rw [h0]
      simp only [zero_add, Finset.sum_range_one, e, ptCount, ptConf, ptAcc, dif_pos h]
      refine ⟨?_, ?_, ?_⟩ <;> first | rfl | trivial
    · obtain ⟨i1, i2, i3⟩ := outsAt_eq c kk n (Nat.lt_of_succ_lt h)
      rw [outsAt0_B m c ⟨n + 1, h⟩ h0,
        out_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) _ (conf m c ⟨n + 1, h⟩) (accu m c ⟨n + 1, h⟩)
          (outsAt0 m c ((⟨n + 1, h⟩ : Fin cfg0.N).val - 1) _),
        leaves_count, leaves_conf, leaves_acc]
      show outsAt0 m c n _ _ + _ = _ ∧ outsAt0 m c n _ _ + _ = _ ∧ outsAt0 m c n _ _ + _ = _
      rw [i1, i2, i3]
      have e1 : (n + 1) % 8 = n % 8 + 1 := by omega
      have e2 : (n + 1) / 8 = n / 8 := by omega
      have e3 : 8 * (n / 8) + (n % 8 + 1) = n + 1 := by omega
      rw [e1, e2, Finset.sum_range_succ _ (n % 8 + 1), Finset.sum_range_succ _ (n % 8 + 1), Finset.sum_range_succ _ (n % 8 + 1), e3]
      have p1 : ptCount m c kk (n + 1) = blkCount (conf m c ⟨n + 1, h⟩) kk := by unfold ptCount; exact dif_pos h
      have p2 : ptConf m c kk (n + 1) = blkConf (conf m c ⟨n + 1, h⟩) kk := by unfold ptConf; exact dif_pos h
      have p3 : ptAcc m c kk (n + 1) = blkAcc (conf m c ⟨n + 1, h⟩) (accu m c ⟨n + 1, h⟩) kk := by unfold ptAcc; exact dif_pos h
      rw [p1, p2, p3]
      exact ⟨rfl, rfl, rfl⟩

end Cert.KernelIdeal.GroupSums

end
-- ==== Proof.OutputArray.lean ====
/-
  The output array after the region.

  The output window's block is [1, 3, 128] at block index (point / 8, 0, 0) of the [2, 3, 128] array, and it is written
  back after the last point of each group only (points 7 and 15).  So the array ends holding, in its slab g, what point
  8·g + 7 left in the output block; at lane k of row r that is the group's statistics: the sum over the group's 8 points
  of the point's block statistic of bin k.
-/
import proofs.«143668_j84404697301125_1_alg».proof.Proof.GroupSums
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.OutputArray

open Cert.KernelIdeal Cert.KernelIdeal.Gen Cert.KernelIdeal.PointValue Cert.KernelIdeal.PointSums Cert.KernelIdeal.GroupSums
open Cert.BinSums

variable (m : (ℓ : Loc nD τ sig) → Buf (Elt Ideal) ℓ)

/-- The output window's block index at point t: (t / 8, 0, 0). -/
theorem out_index : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a point left depends on the point's number only. -/
theorem outsAt0_congr (c : Dev nD) {n n' : ℕ} (e : n = n') (h : n < cfg0.N) (h' : n' < cfg0.N) :
    outsAt0 m c n h = outsAt0 m c n' h' := by
  subst e; rfl

/-- The array the region leaves: slab g holds what point 8·g + 7 left in the output block. -/
def finalArr (c : Dev nD) : Buf (Elt Ideal) ((c : Thread nD τ).loc main_v0) := fun (i : S2x3x128.Idx) =>
  outsAt0 m c (8 * (i 0).val + 7) (by have h0 : (i 0).val < 2 := (i 0).isLt; rw [show cfg0.N = 16 from N_0]; omega)
    (ix3 (0 : Fin 1) (i 1) (i 2))

/-- A write-back (after point 7 or 15) writes block (t / 8, 0, 0) of that array. -/
theorem flushed_eq (c : Dev nD) (t : Fin cfg0.N) (hf : (cfg0.win 2).flush t = true) :
    (dats m 0 c).flushed 2 t = ((cfg0.win 2).blk t).view.read (Elt Ideal) (finalArr m c) := by
  have h7 : t.val % 8 = 7 := (flush0_2 t).mp hf
  obtain ⟨e0, e1, e2⟩ := out_index t
  show (cfg0.win 2).cut (grid0.coords t) ((dats m 0 c).after 2 t) = _
  rw [after0_2]
  funext j
  show outsAt0 m c t.val t.isLt j = finalArr m c (((cfg0.win 2).blk t).view.emb j)
  unfold finalArr
  have hj0 : (j 0).val < 1 := (j 0).isLt
  have c0 : ((((cfg0.win 2).blk t).view.emb j) 0).val = t.val / 8 := by
    show win0_2.index t (0 : Fin 3) * 1 + 1 * (j 0).val = _
    omega
  have c1 : (((cfg0.win 2).blk t).view.emb j) 1 = j 1 := Fin.ext (by
    show win0_2.index t (1 : Fin 3) * 3 + 1 * (j 1).val = (j 1).val
    omega)
  have c2 : (((cfg0.win 2).blk t).view.emb j) 2 = j 2 := Fin.ext (by
    show win0_2.index t (2 : Fin 3) * 128 + 1 * (j 2).val = (j 2).val
    omega)
  have ej : j = ix3 (0 : Fin 1) (j 1) (j 2) := by
    funext a
    match a with
    | ⟨0, _⟩ => exact Fin.ext (by show (j 0).val = 0; omega)
    | ⟨1, _⟩ => rfl
    | ⟨2, _⟩ => rfl
  show outsAt0 m c t.val t.isLt j
    = outsAt0 m c (8 * ((((cfg0.win 2).blk t).view.emb j) 0).val + 7) _ (ix3 (0 : Fin 1) ((((cfg0.win 2).blk t).view.emb j) 1) ((((cfg0.win 2).blk t).view.emb j) 2))
  rw [c1, c2]
  exact (congrArg (outsAt0 m c t.val t.isLt) ej).trans
    (congrFun (outsAt0_congr m c (by omega) t.isLt _) (ix3 (0 : Fin 1) (j 1) (j 2)))

/-- Every entry of the array lies in the block one of the two write-backs writes. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 3 := (i 1).isLt
  have h2 : (i 2 : Nat) < 128 := (i 2).isLt
  have side : ∀ t : Fin cfg0.N, t.val / 8 = (i 0 : Nat) → i ∈ ((cfg0.win 2).blk t).view.set := by
    intro t ht
    obtain ⟨e0, e1, e2⟩ := out_index t
    show i ∈ ((View.whole main_v0).slice (win0_2.rect t)).set
    rw [View.set_slice_whole, Rect.mem_set_unit]
    intro a
    match a with
    | ⟨0, _⟩ =>
      show win0_2.index t (0 : Fin 3) * 1 ≤ (i 0 : Nat) ∧ (i 0 : Nat) < win0_2.index t (0 : Fin 3) * 1 + 1
      omega
    | ⟨1, _⟩ =>
      show win0_2.index t (1 : Fin 3) * 3 ≤ (i 1 : Nat) ∧ (i 1 : Nat) < win0_2.index t (1 : Fin 3) * 3 + 3
      omega
    | ⟨2, _⟩ =>
      show win0_2.index t (2 : Fin 3) * 128 ≤ (i 2 : Nat) ∧ (i 2 : Nat) < win0_2.index t (2 : Fin 3) * 128 + 128
      omega
  have hN : cfg0.N = 16 := N_0
  refine ⟨⟨8 * (i 0 : Nat) + 7, by omega⟩, (flush0_2 _).mpr (by show (8 * (i 0 : Nat) + 7) % 8 = 7; omega), side _ (by show (8 * (i 0 : Nat) + 7) / 8 = _; omega)⟩

/-- So the array ends holding, slab by slab, what each group's last point left. -/
theorem final_arr (c : Dev nD) : (dats m 0 c).arrAt 2 cfg0.N = finalArr m c :=
  (dats m 0 c).arrAt_eq_of_cover 2 (finalArr m c) (flushed_eq m c) (covered c)

/-- At lane k of row r, slab g holds the group's statistics: the sum of the point statistics over the group's 8 points. -/
theorem final_at (c : Dev nD) (kk : Fin 20) (g : Fin 2) :
    finalArr m c (ix3 g (0 : Fin 3) (lane kk)) = ∑ j ∈ Finset.range 8, ptCount m c kk (8 * g.val + j)
    ∧ finalArr m c (ix3 g (1 : Fin 3) (lane kk)) = ∑ j ∈ Finset.range 8, ptConf m c kk (8 * g.val + j)
    ∧ finalArr m c (ix3 g (2 : Fin 3) (lane kk)) = ∑ j ∈ Finset.range 8, ptAcc m c kk (8 * g.val + j) := by
  have hg := g.isLt
  have hN : cfg0.N = 16 := N_0
  obtain ⟨i1, i2, i3⟩ := outsAt_eq m c kk (8 * g.val + 7) (by omega)
  have e1 : (8 * g.val + 7) % 8 + 1 = 8 := by omega
  have e2 : 8 * ((8 * g.val + 7) / 8) = 8 * g.val := by omega
  rw [e1, e2] at i1 i2 i3
  exact ⟨i1, i2, i3⟩

end Cert.KernelIdeal.OutputArray

end
-- ==== Proof.KernelTail.lean ====
/-
  The kernel's result is the calibration error of the per-bin statistics.

  After the region the host adds the two groups' slabs of the output array, takes the first 20 lanes of its three rows as
  the count, confidence-sum and accuracy-sum vectors, and computes the calibration error from them.  Lane k of row r of
  the slab sum is the sum over both groups, hence over all 16 points, of the point's block statistic of bin k; point n's
  blocks are blocks n of the two argument arrays, so the three vectors are the per-bin statistics of the arguments.
-/
import proofs.«143668_j84404697301125_1_alg».proof.Proof.OutputArray
import proofs.«143668_j84404697301125_1_alg».proof.Proof.LibSumRows
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.KernelTail

open Cert.KernelIdeal Cert.KernelIdeal.Gen Cert.KernelIdeal.PointValue Cert.KernelIdeal.PointSums Cert.KernelIdeal.GroupSums
open Cert.KernelIdeal.OutputArray Cert.BinSums

/-- The output array, a 20-vector and a scalar at the ideal values. -/
abbrev Out := FVec Ideal S2x3x128 .f32
abbrev Vec20 := FVec Ideal S20 .f32
abbrev Sca := FVec Ideal S_ .f32

/-! ## The operations after the region, over any output array -/

/-- The host's sum of a 20-vector from an initial scalar: the scalar plus the sum over the 20 entries. -/
theorem reduce20 (y : Vec20) (z : Sca) (i : S_.Idx) :
    Host.reduceAdd (F := Ideal) y z reducesTo_S20_S_d0 h_S_ i = z (Shape.Idx.first h_S_) + ∑ k : Fin 20, y (ix1 k) := by
  simp only [Host.reduceAdd, Ideal.hostReduceAdd_def]
  rw [Ideal.hostReduceAdd_total reducesTo_S20_S_d0 (fun b => b.elim0) y _ i, Cert.LibSumRows.sum_idx1]

/-- The two slabs added, and the first 20 lanes of row r of the sum as a vector. -/
def slabSum (O : Out) : FVec Ideal S3x128 .f32 :=
  Host.reduceAdd (F := Ideal) O (constant (F := Ideal) S_ .f32 0x00000000#32) reducesTo_S2x3x128_S3x128_d0 h_S_
def row0 (O : Out) : Vec20 := shapeCast S20 (extractStridedSlice S1x20 ![0, 0] (slabSum O) slices_S3x128_S1x20_0_0) shapeCasts_S1x20_S20
def row1 (O : Out) : Vec20 := shapeCast S20 (extractStridedSlice S1x20 ![1, 0] (slabSum O) slices_S3x128_S1x20_1_0) shapeCasts_S1x20_S20
def row2 (O : Out) : Vec20 := shapeCast S20 (extractStridedSlice S1x20 ![2, 0] (slabSum O) slices_S3x128_S1x20_2_0) shapeCasts_S1x20_S20

/-- The positive-count mask, the divisors, and the calibration error as the host computes it from three vectors. -/
def maskK (c : Vec20) : IVec S20 1 :=
  cmpf (F := Ideal) .ogt c (broadcastInDim S20 ![] bcast_S_S20 (constant (F := Ideal) S_ .f32 0x00000000#32))
def divK (c : Vec20) : Vec20 :=
  select (maskK c) c (broadcastInDim S20 ![] bcast_S_S20 (id (constant (F := Ideal) S_ .f32 0x3F800000#32)))
def tailV (c sp st : Vec20) : Sca :=
  Host.divf (F := Ideal)
    (Host.reduceAdd (F := Ideal)
      (select (maskK c)
        (Host.absf (F := Ideal) (subf (F := Ideal) (Host.divf (F := Ideal) sp (divK c)) (Host.divf (F := Ideal) st (divK c))))
        (broadcastInDim S20 ![] bcast_S_S20 (id (constant (F := Ideal) S_ .f32 0x00000000#32))))
      (constant (F := Ideal) S_ .f32 0x00000000#32) reducesTo_S20_S_d0 h_S_)
    (maximumf (F := Ideal)
      (Host.reduceAdd (F := Ideal) (uitofp (F := Ideal) .f32 (maskK c)) (constant (F := Ideal) S_ .f32 0x00000000#32) reducesTo_S20_S_d0 h_S_)
      (constant (F := Ideal) S_ .f32 0x3F800000#32))

/-- It is the calibration error of the three vectors. -/
theorem tailV_eq (c sp st : Vec20) (i : S_.Idx) :
    tailV c sp st i = ace (fun k => c (ix1 k)) (fun k => sp (ix1 k)) (fun k => st (ix1 k)) := by
  unfold tailV
  show FloatOps.hostDivf (F := Ideal) (φ := .f32)
    (Host.reduceAdd (F := Ideal) (select (maskK c)
        (Host.absf (F := Ideal) (subf (F := Ideal) (Host.divf (F := Ideal) sp (divK c)) (Host.divf (F := Ideal) st (divK c))))
        (broadcastInDim S20 ![] bcast_S_S20 (id (constant (F := Ideal) S_ .f32 0x00000000#32))))
      (constant (F := Ideal) S_ .f32 0x00000000#32) reducesTo_S20_S_d0 h_S_ i)
    (FloatOps.maximumf (F := Ideal) (φ := .f32)
      (Host.reduceAdd (F := Ideal) (uitofp (F := Ideal) .f32 (maskK c)) (constant (F := Ideal) S_ .f32 0x00000000#32) reducesTo_S20_S_d0 h_S_ i)
      (constant (F := Ideal) S_ .f32 0x3F800000#32 i)) = _
  rw [reduce20, reduce20]
  rfl

/-- The whole tail, from the output array. -/
def tailK (O : Out) : Sca := tailV (row0 O) (row1 O) (row2 O)

/-! ## The rows, read at a bin -/

/-- The slab sum at (r, l): zero plus the two slabs' entries there. -/
theorem slabSum_at (O : Out) (r : Fin 3) (l : Fin 128) :
    slabSum O (ix2 r l) = 0 + ∑ g : Fin 2, O (ix3 g r l) := by
  unfold slabSum
  simp only [Host.reduceAdd, Ideal.hostReduceAdd_def]
  rw [Ideal.hostReduceAdd_single reducesTo_S2x3x128_S3x128_d0 (by decide : S2x3x128.Reduces [0] S3x128) O _ (ix2 r l)]
  refine congrArg₂ (· + ·) Ideal.ofBits_zero_f32 (Finset.sum_congr rfl fun g _ => congrArg O ?_)
  funext a
  match a with
  | ⟨0, _⟩ => rfl
  | ⟨1, _⟩ => rfl
  | ⟨2, _⟩ => rfl

/-- Entry k of the vector taken from row r is the slab sum at (r, lane k). -/
theorem row0_at (O : Out) (kk : Fin 20) : row0 O (ix1 kk) = slabSum O (ix2 (0 : Fin 3) (lane kk)) := by
  unfold row0
  rw [shapeCast_apply _ shapeCasts_S1x20_S20 (ix1 kk) (ix2 (0 : Fin 1) kk)
      (by rewrite [Shape.rowMajor_val_two, Shape.rowMajor_val_one]; show 0 * 20 + kk.val = kk.val; omega),
    extractStridedSlice_apply ![0, 0] (slabSum O) slices_S3x128_S1x20_0_0 (ix2 (0 : Fin 1) kk) (ix2 (0 : Fin 3) (lane kk))
      (fun a => by match a with | ⟨0, _⟩ => rfl | ⟨1, _⟩ => show kk.val = 0 + kk.val; omega)]
theorem row1_at (O : Out) (kk : Fin 20) : row1 O (ix1 kk) = slabSum O (ix2 (1 : Fin 3) (lane kk)) := by
  unfold row1
  rw [shapeCast_apply _ shapeCasts_S1x20_S20 (ix1 kk) (ix2 (0 : Fin 1) kk)
      (by rewrite [Shape.rowMajor_val_two, Shape.rowMajor_val_one]; show 0 * 20 + kk.val = kk.val; omega),
    extractStridedSlice_apply ![1, 0] (slabSum O) slices_S3x128_S1x20_1_0 (ix2 (0 : Fin 1) kk) (ix2 (1 : Fin 3) (lane kk))
      (fun a => by match a with | ⟨0, _⟩ => rfl | ⟨1, _⟩ => show kk.val = 0 + kk.val; omega)]
theorem row2_at (O : Out) (kk : Fin 20) : row2 O (ix1 kk) = slabSum O (ix2 (2 : Fin 3) (lane kk)) := by
  unfold row2
  rw [shapeCast_apply _ shapeCasts_S1x20_S20 (ix1 kk) (ix2 (0 : Fin 1) kk)
      (by rewrite [Shape.rowMajor_val_two, Shape.rowMajor_val_one]; show 0 * 20 + kk.val = kk.val; omega),
    extractStridedSlice_apply ![2, 0] (slabSum O) slices_S3x128_S1x20_2_0 (ix2 (0 : Fin 1) kk) (ix2 (2 : Fin 3) (lane kk))
      (fun a => by match a with | ⟨0, _⟩ => rfl | ⟨1, _⟩ => show kk.val = 0 + kk.val; omega)]

/-! ## The frame's tail, the blocks, and the result -/

section Run

variable (m : (ℓ : Loc nD τ sig) → Buf (Elt Ideal) ℓ) (ρ : Dev nD → PrngReg)

set_option maxHeartbeats 2000000 in
/-- The 31 host operations after the region compute that tail of the output array as the region leaves it. -/
theorem tail_term (c : Dev nD) :
    Pipeline.afterTail₀ cfgs (dats m) 0 (V0 m) [hostOps1, hostOps1_1, hostOps1_2, hostOps1_3, hostOps1_4] c main_v20
      = tailK (Pipeline.withArrays (cfgs 0).spec c (V0 m c) (fun w => (dats m 0 c).arrAt w (cfgs 0).N) (Proc.devRef .tc main_v0)) := by
  unfold Pipeline.afterTail₀
  simp only [hostOps1, hostOps1_1, hostOps1_2, hostOps1_3, hostOps1_4, List.flatten_cons, List.flatten_nil, List.append_nil,
    List.cons_append, List.nil_append]
  after_results_simp
  rfl

/-- The output array as the region leaves it. -/
theorem out_eq (c : Dev nD) :
    Pipeline.withArrays (cfgs 0).spec c (V0 m c) (fun w => (dats m 0 c).arrAt w (cfgs 0).N) (Proc.devRef .tc main_v0)
      = finalArr m c :=
  (Pipeline.withArrays_arr spec0 launch0.win.arr_inj c _ _ 2).trans (final_arr m c)

/-- Both input windows' block index at point t: (t, 0, 0). -/
theorem in_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Point t's confidence block is block t of the first argument, -/
theorem conf_eq (c : Dev nD) (t : Fin cfg0.N) :
    conf m c t = blockOf (m ((c : Thread nD τ).loc main_arg0)) ⟨t.val, lt_of_lt_of_eq t.isLt N_0⟩ := by
  obtain ⟨e0, e1, e2, -, -, -⟩ := in_index t
  funext j
  have hj0 : (j 0).val < 1 := (j 0).isLt
  show iblk m c 0 t j = _
  unfold iblk blockOf
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * (j 0).val = t.val; omega
  | ⟨1, _⟩ => show win0_0.index t (1 : Fin 3) * 1024 + 1 * (j 1).val = (j 1).val; omega
  | ⟨2, _⟩ => show win0_0.index t (2 : Fin 3) * 1024 + 1 * (j 2).val = (j 2).val; omega

/-- and its accuracy block is block t of the second. -/
theorem accu_eq (c : Dev nD) (t : Fin cfg0.N) :
    accu m c t = blockOf (m ((c : Thread nD τ).loc main_arg1)) ⟨t.val, lt_of_lt_of_eq t.isLt N_0⟩ := by
  obtain ⟨-, -, -, e0, e1, e2⟩ := in_index t
  funext j
  have hj0 : (j 0).val < 1 := (j 0).isLt
  show iblk m c 1 t j = _
  unfold iblk blockOf
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * (j 0).val = t.val; omega
  | ⟨1, _⟩ => show win0_1.index t (1 : Fin 3) * 1024 + 1 * (j 1).val = (j 1).val; omega
  | ⟨2, _⟩ => show win0_1.index t (2 : Fin 3) * 1024 + 1 * (j 2).val = (j 2).val; omega

/-- Two groups of 8 consecutive points are the 16 points. -/
theorem sum_groups {M : Type*} [AddCommMonoid M] (F : ℕ → M) :
    ∑ g : Fin 2, ∑ j ∈ Finset.range 8, F (8 * g.val + j) = ∑ a : Fin 16, F a.val := by
  simp only [Finset.sum_range]
  exact (Cert.LibSumRows.sum_fin_rows (n := 16) (a := 2) (b := 8) rfl (fun a => F a.val)
    (fun g j => F (8 * g.val + j.val)) (fun _ _ _ => rfl)).symm

/-- The arguments, as arrays. -/
abbrev argP (c : Dev nD) : SArr.Idx → EReal := m ((c : Thread nD τ).loc main_arg0)
abbrev argT (c : Dev nD) : SArr.Idx → EReal := m ((c : Thread nD τ).loc main_arg1)

/-- The three vectors the host takes from the output array are the arguments' per-bin statistics. -/
theorem cnt_eq (c : Dev nD) (kk : Fin 20) : row0 (finalArr m c) (ix1 kk) = count (argP m c) kk := by
  have hg : ∀ g : Fin 2, (finalArr m c (ix3 g (0 : Fin 3) (lane kk)) : EReal) = ∑ j ∈ Finset.range 8, ptCount m c kk (8 * g.val + j) :=
    fun g => (final_at m c kk g).1
  rw [row0_at, slabSum_at, zero_add]
  simp only [hg]
  rw [sum_groups (ptCount m c kk), count_blocks]
  refine Finset.sum_congr rfl fun a _ => ?_
  unfold ptCount
  rw [dif_pos (lt_of_lt_of_eq a.isLt N_0.symm), conf_eq]

theorem conf_sum_eq (c : Dev nD) (kk : Fin 20) : row1 (finalArr m c) (ix1 kk) = sumConf (argP m c) kk := by
  have hg : ∀ g : Fin 2, (finalArr m c (ix3 g (1 : Fin 3) (lane kk)) : EReal) = ∑ j ∈ Finset.range 8, ptConf m c kk (8 * g.val + j) :=
    fun g => (final_at m c kk g).2.1
  rw [row1_at, slabSum_at, zero_add]
  simp only [hg]
  rw [sum_groups (ptConf m c kk), sumConf_blocks]
  refine Finset.sum_congr rfl fun a _ => ?_
  unfold ptConf
  rw [dif_pos (lt_of_lt_of_eq a.isLt N_0.symm), conf_eq]

theorem acc_sum_eq (c : Dev nD) (kk : Fin 20) : row2 (finalArr m c) (ix1 kk) = sumAcc (argP m c) (argT m c) kk := by
  have hg : ∀ g : Fin 2, (finalArr m c (ix3 g (2 : Fin 3) (lane kk)) : EReal) = ∑ j ∈ Finset.range 8, ptAcc m c kk (8 * g.val + j) :=
    fun g => (final_at m c kk g).2.2
  rw [row2_at, slabSum_at, zero_add]
  simp only [hg]
  rw [sum_groups (ptAcc m c kk), sumAcc_blocks]
  refine Finset.sum_congr rfl fun a _ => ?_
  unfold ptAcc
  rw [dif_pos (lt_of_lt_of_eq a.isLt N_0.symm), conf_eq, accu_eq]

/-- The kernel's result: the calibration error of the per-bin statistics of its two arguments. -/
def result (c : Dev nD) : Buf (Elt Ideal) ((c : Thread nD τ).loc main_v20) :=
  fun _ => ace (count (argP m c)) (sumConf (argP m c)) (sumAcc (argP m c) (argT m c))

theorem kernel_value (c : Dev nD) :
    Pipeline.afterTail₀ cfgs (dats m) 0 (V0 m) [hostOps1, hostOps1_1, hostOps1_2, hostOps1_3, hostOps1_4] c main_v20
      = result m c := by
  have e1 : (fun k : Fin 20 => row0 (finalArr m c) (ix1 k)) = count (argP m c) := funext (cnt_eq m c)
  have e2 : (fun k : Fin 20 => row1 (finalArr m c) (ix1 k)) = sumConf (argP m c) := funext (conf_sum_eq m c)
  have e3 : (fun k : Fin 20 => row2 (finalArr m c) (ix1 k)) = sumAcc (argP m c) (argT m c) := funext (acc_sum_eq m c)
  rw [tail_term, out_eq]
  funext i
  show tailV (row0 (finalArr m c)) (row1 (finalArr m c)) (row2 (finalArr m c)) i = _
  rw [tailV_eq, e1, e2, e3]
  rfl

/-- The run, read: the result at the calibration error of the arguments' statistics, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v20 (by decide)).trans (kernel_value m c),
      ((h c).1 0).trans ((dats m 0 c).arrAt_in 0 rfl _), ((h c).1 1).trans ((dats m 0 c).arrAt_in 1 rfl _)⟩)
    (run_main m ρ)

end Run

end Cert.KernelIdeal.KernelTail

end
-- ==== Proof.lean ====
/-
  The kernel and its reference compute the same calibration error at the ideal values.

  Both programs take a [16, 1024, 1024] array of confidences and one of accuracies.  A confidence x falls in bin
  floor(20·x) (as a signed word, clamped to 0 … 19) and carries weight 1 when 0 ≤ x < 1, else 0.  For each of the 20 bins both
  form the count (the sum of the weights of the bin's entries), the sum of confidence · weight and the sum of
  accuracy · weight, and from these the error: the sum over the bins with a positive count of |confidence sum / count −
  accuracy sum / count|, divided by the number of such bins, or by 1 when there is none.

  The reference flattens the arrays and forms the three statistics by accumulating scatters.  The kernel goes through the
  arrays one [1024, 1024] block per grid point, 16 points in two groups of 8; at each point a 20-trip loop sums, for trip b,
  the weights of the block's entries of bin b (alone, times the confidence, times the accuracy) into lane b of three rows,
  and the rows are added into an output block that a group's first point starts from zero; each group's block is written
  back after its last point, and the host adds the two groups and reads off lanes 0 … 19.  Addition of extended reals is
  commutative and associative and 0 · x = 0, so the entries may be summed block by block, bin by bin, in any order: the three
  statistics agree (no finiteness is needed), and the operations after them are the same on both sides.

  The frames of the kernel and of its idealization are the generated ones; the reference's frame is its run with the
  result dropped; the idealization rewrote nothing.
-/
import proofs.«143668_j84404697301125_1_alg».proof.Defs
import proofs.«143668_j84404697301125_1_alg».proof.Proof.Gen.Kernel
import proofs.«143668_j84404697301125_1_alg».proof.Proof.Gen.Kernel.Skeleton
import proofs.«143668_j84404697301125_1_alg».proof.Proof.Gen.Kernel.Loops
import proofs.«143668_j84404697301125_1_alg».proof.Proof.Gen.Kernel.Launch
import proofs.«143668_j84404697301125_1_alg».proof.Proof.Gen.Kernel.Points
import proofs.«143668_j84404697301125_1_alg».proof.Proof.Gen.Kernel.Frame
import proofs.«143668_j84404697301125_1_alg».proof.Proof.Gen.KernelIdeal
import proofs.«143668_j84404697301125_1_alg».proof.Proof.Gen.KernelIdeal.Skeleton
import proofs.«143668_j84404697301125_1_alg».proof.Proof.Gen.KernelIdeal.Loops
import proofs.«143668_j84404697301125_1_alg».proof.Proof.Gen.KernelIdeal.Launch
import proofs.«143668_j84404697301125_1_alg».proof.Proof.Gen.KernelIdeal.Points
import proofs.«143668_j84404697301125_1_alg».proof.Proof.Gen.KernelIdeal.Frame
import proofs.«143668_j84404697301125_1_alg».proof.Proof.Gen.ReferenceIdeal
import proofs.«143668_j84404697301125_1_alg».proof.Proof.Gen.Pre_finite_inputs
import proofs.«143668_j84404697301125_1_alg».proof.Proof.RefRun
import proofs.«143668_j84404697301125_1_alg».proof.Proof.RefRead
import proofs.«143668_j84404697301125_1_alg».proof.Proof.RefValue
import proofs.«143668_j84404697301125_1_alg».proof.Proof.KernelTail
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From arguments that agree, both runs end at the calibration error of the arguments' per-bin statistics. -/
theorem algebraic : Cert.algebraic_KernelIdeal_ReferenceIdeal := by
  intro m ρ m' ρ' _ hagree
  refine ⟨fun c => Cert.KernelIdeal.KernelTail.result m c, Cert.KernelIdeal.KernelTail.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v36_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
